-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v43_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v43_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x128 : Shape := ⟨2, ![2, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x128 : S_.BroadcastsInDim S2x128 (![] : Fin 0 → Fin S2x128.rank)
  reducesTo_S2x128_S_d0_1 : S2x128.ReducesTo [0, 1] S_

variable [Facts]

def fn {F : FTy → Type} [FloatOps F] (main_arg0 : FVec F S100000x128 .f32) (main_arg1 : FVec F S50000x128 .f32) (main_arg2 : FVec F S2x128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  main_v13
-- ==== Kernel.lean ====
abbrev S100000x128 : Shape := ⟨2, ![100000, 128]⟩
abbrev S50000x128 : Shape := ⟨2, ![50000, 128]⟩
abbrev S2x128 : Shape := ⟨2, ![2, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S50000 : Shape := ⟨1, ![50000]⟩
abbrev S50000x1 : Shape := ⟨2, ![50000, 1]⟩
abbrev S128 : Shape := ⟨1, ![128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 83
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S50000x128, .f32⟩
  | .hbm, ⟨34, _⟩ => ⟨S1600000x1, .i32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S1600000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .i1⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S_, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S_, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S2x128, .f32⟩
  | .hbm, ⟨58, _⟩ => ⟨S2x128, .f32⟩
  | .hbm, ⟨59, _⟩ => ⟨S2x128, .f32⟩
  | .hbm, ⟨60, _⟩ => ⟨S_, .f32⟩
  | .hbm, ⟨61, _⟩ => ⟨S128, .f32⟩
  | .hbm, ⟨62, _⟩ => ⟨S1x128, .f32⟩
  | .hbm, ⟨63, _⟩ => ⟨S2x128, .f32⟩
  | .hbm, ⟨64, _⟩ => ⟨S2x128, .f32⟩
  | .hbm, ⟨65, _⟩ => ⟨S1x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S1x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_cst_8 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_call1_v0 : Ref sig .tc := ⟨.hbm, 47, rfl⟩
abbrev main_call1_v1 : Ref sig .tc := ⟨.hbm, 48, rfl⟩
abbrev main_v28 : Ref sig .tc := ⟨.hbm, 49, rfl⟩
abbrev main_v29 : Ref sig .tc := ⟨.hbm, 50, rfl⟩
abbrev main_cst_10 : Ref sig .tc := ⟨.hbm, 51, rfl⟩
abbrev main_v30 : Ref sig .tc := ⟨.hbm, 52, rfl⟩
abbrev main_cst_11 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43_0 : Ref sig .tc := ⟨.hbm, 67, rfl⟩
abbrev main_v43_1 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_c_14 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_15 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  reducesTo_S2x128_S128_d0 : S2x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  slices_S2x128_S1x128_0_0 : S2x128.Slices ![0, 0] S1x128
  slices_S2x128_S1x128_1_0 : S2x128.Slices ![1, 0] S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S10000x128_S10000x128 : S10000x128.ShapeCasts S10000x128
  broadcasts_S1x128_S10000x128 : S1x128.Broadcasts S10000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S10000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x128 : Shape := ⟨2, ![2, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128 : Shape := ⟨1, ![128]⟩
abbrev S1x128 : Shape := ⟨2, ![1, 128]⟩
abbrev S50000 : Shape := ⟨1, ![50000]⟩
abbrev S50000x1 : Shape := ⟨2, ![50000, 1]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S100000, .f32⟩
  | .hbm, ⟨9, _⟩ => ⟨S1600000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .i1⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S50000x128, .f32⟩
  | .hbm, ⟨35, _⟩ => ⟨S1600000x1, .i32⟩
  | .hbm, ⟨36, _⟩ => ⟨S50000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S1x128, .f32⟩
  | .hbm, ⟨43, _⟩ => ⟨S2x128, .f32⟩
  | .hbm, ⟨44, _⟩ => ⟨S2x128, .f32⟩
  | .hbm, ⟨45, _⟩ => ⟨S2x128, .f32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S2x128, .f32⟩
  | .hbm, ⟨50, _⟩ => ⟨S2x128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000, .f32⟩
  | .hbm, ⟨64, _⟩ => ⟨S1600000x1, .i32⟩
  | .hbm, ⟨65, _⟩ => ⟨S50000, .f32⟩
  | .hbm, ⟨66, _⟩ => ⟨S_, .f32⟩
  | .hbm, ⟨67, _⟩ => ⟨S50000, .f32⟩
  | .hbm, ⟨68, _⟩ => ⟨S50000, .i1⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S_, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S1x128, .f32⟩
  | .hbm, ⟨93, _⟩ => ⟨S128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_call1_v0 : Ref sig .tc := ⟨.hbm, 73, rfl⟩
abbrev main_call1_v1 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_c_14 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000x128 : S_.BroadcastsInDim S50000x128 (![] : Fin 0 → Fin S50000x128.rank)
  reducesTo_S2x128_S128_d0 : S2x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  slices_S2x128_S1x128_0_0 : S2x128.Slices ![0, 0] S1x128
  shapeCasts_S1x128_S128 : S1x128.ShapeCasts S128
  bcast_S1x128_S50000x128_0_1 : S1x128.BroadcastsInDim S50000x128 (![0, 1] : Fin 2 → Fin S50000x128.rank)
  slices_S2x128_S1x128_1_0 : S2x128.Slices ![1, 0] S1x128
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibKeepdims.lean ====
/-
  The two layout steps of a row reduction that keeps its dimension, read at an index.

  A reduction of an [a, b] array along its rows gives an [a] array; kept as a column it is cast to [a, 1] and then
  broadcast back to [a, b].  At entry (p, q) of the broadcast one reads the column's entry (p, 0), and there the cast
  reads the vector's entry p: every entry of row p sees the row's own reduced value.  Stated for any element type and
  any extents.
-/
import Idealize.ShloMosaic.Lib.Pipeline.Value
import Idealize.ShloMosaic.Lib.ValueIdx

noncomputable section

namespace KeepdimsLayout

open Idealize.ShloMosaic Idealize.ShloMosaic.ValueIdx

/-- An [a] array cast to [a, 1] reads, at (p, u), the operand at p, whatever the unit coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end KeepdimsLayout

end
-- ==== Proof.RowScale.lean ====
/-
  The first kernel region scales the rows of a [100000, 128] array: the grid's ten points each take a block of
  10000 rows of the array and the matching 10000 entries of a one-column array, and write back the block with
  every row multiplied by its own column entry.  Put together, the region's result array holds, at (p, q),
  the first array's entry (p, q) times the column's entry (p, 0).
-/
import proofs.«121313_j22393959481939_1_alg».proof.Proof.Gen.KernelIdeal.Frame
import proofs.«121313_j22393959481939_1_alg».proof.Proof.LibKeepdims
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RowScale

open Cert.KernelIdeal Cert.KernelIdeal.Gen

variable (V : (c : Dev nD) → (b : Ref sig .tc) → Buf (Elt Ideal) ((c : Thread nD τ).loc b))

/-- The region's first operand as the region finds it, at its literal type. -/
abbrev xarr (c : Dev nD) : Vec Ideal S100000x128 .f32 := V c main_arg0
/-- The region's one-column operand as the region finds it, at its literal type. -/
abbrev sarr (c : Dev nD) : Vec Ideal S100000x1 .f32 := V c main_v9

theorem hz : (![0, 0] : Fin 2 → Nat) = fun _ => 0 := funext fun a => by fin_cases a <;> rfl

/-- Every row of `x` multiplied by that row's entry of the column `s`. -/
def scaled (x : Vec Ideal S100000x128 .f32) (s : Vec Ideal S100000x1 .f32) : Vec Ideal S100000x128 .f32 :=
  fun i => x i * s (ix2 (i 0) (0 : Fin 1))

theorem scaled_apply (x : Vec Ideal S100000x128 .f32) (s : Vec Ideal S100000x1 .f32) (p : Fin 100000) (q : Fin 128) :
    scaled x s (ix2 p q) = x (ix2 p q) * s (ix2 p (0 : Fin 1)) := rfl

/-- The body's stored value at (p, q): the block's entry times the column block's entry of row p. -/
theorem pay_apply (x0 : Vec Ideal S10000x128 .f32) (x1 : Vec Ideal S10000x1 .f32) (p : Fin 10000) (q : Fin 128) :
    k0_pay1 x0 x1 (ix2 p q) = x0 (ix2 p q) * x1 (ix2 p (0 : Fin 1)) := by
  unfold k0_pay1
  show x0 (ix2 p q) * broadcastTo S10000x128 (shapeCast S10000x1 x1 shapeCasts_S10000x1_S10000x1) broadcasts_S10000x1_S10000x128 (ix2 p q) = _
  rw [KeepdimsLayout.broadcastTo_a1_ab_apply, shapeCast_self]

/-- The printed index maps over the grid: every window's block index is the point itself on the row axis and 0 on the other. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled array. -/
theorem flushed_eq (c : Dev nD) (t : Fin cfg0.N) :
    (dat0 V c).flushed 2 t = ((cfg0.win 2).blk t).view.read (Elt Ideal) (scaled (xarr V c) (sarr V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = scaled (xarr V c) (sarr V c) (((cfg0.win 2).blk t).view.emb (ix2 p q))
  refine (pay_apply (iblk0 V c 0 t) (iblk0 V c 1 t) p q).trans ?_
  show xarr V c (((cfg0.win 0).blk t).view.emb (ix2 p q)) * sarr V c (((cfg0.win 1).blk t).view.emb (ix2 p (0 : Fin 1)))
    = xarr V c (((cfg0.win 2).blk t).view.emb (ix2 p q))
      * sarr V c (ix2 ((((cfg0.win 2).blk t).view.emb (ix2 p q)) 0) (0 : Fin 1))
  have h0 : ((cfg0.win 0).blk t).view.emb (ix2 p q) = ((cfg0.win 2).blk t).view.emb (ix2 p q) := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * q.val = win0_2.index t (1 : Fin 2) * 128 + 1 * q.val; omega
  have h1 : ((cfg0.win 1).blk t).view.emb (ix2 p (0 : Fin 1))
      = ix2 ((((cfg0.win 2).blk t).view.emb (ix2 p q)) 0) (0 : Fin 1) := by
    funext a; apply Fin.ext
    match a with
    | ⟨0, _⟩ => show win0_1.index t (0 : Fin 2) * 10000 + 1 * p.val = win0_2.index t (0 : Fin 2) * 10000 + 1 * p.val; omega
    | ⟨1, _⟩ => show win0_1.index t (1 : Fin 2) * 1 + 1 * 0 = 0; omega
  rw [h0, h1]
  rfl

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v10).slice (win0_2.rect t)).set ↔ _
  rw [View.set_slice_whole, Rect.mem_set_unit]
  exact Iff.rfl

/-- Every row lies in the block of the point its thousands say. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  obtain ⟨-, -, -, -, e4, e5⟩ := idx_facts t
  have e4' : win0_2.index t (0 : Fin 2) = (i 0).val / 10000 := e4
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The region's result array: the rows of its first operand scaled by its second. -/
theorem final (c : Dev nD) : (dat0 V c).arrAt 2 cfg0.N = scaled (xarr V c) (sarr V c) :=
  (dat0 V c).arrAt_eq_of_cover 2 (scaled (xarr V c) (sarr V c)) (fun t _ => flushed_eq V c t) cover

end Cert.KernelIdeal.RowScale

end
-- ==== Proof.LibRowLayout.lean ====
/-
  A column turned into a row and spread over a matrix, read at an index.

  An [a, 1] column transposed is a [1, a] row whose entry (0, q) is the column's entry (q, 0); a [1, b] row
  broadcast to [a, b] has at (p, q) the row's entry (0, q): every entry of column q sees that column's own value.
  Stated for any element type and any extents.
-/
import Idealize.ShloMosaic.Lib.Pipeline.Value
import Idealize.ShloMosaic.Lib.ValueIdx

noncomputable section

namespace RowLayout

open Idealize.ShloMosaic Idealize.ShloMosaic.ValueIdx

/-- An [a, 1] column transposed to a [1, a] row reads, at (u, q), the column's entry (q, u). -/
theorem transpose_a1_1a_apply {α : Type} {a : ℕ} (x : (⟨2, ![a, 1]⟩ : Shape).Idx → α)
    (h : (⟨2, ![a, 1]⟩ : Shape).Transposes [1, 0] ⟨2, ![1, a]⟩) (u : Fin 1) (q : Fin a) :
    transpose ⟨2, ![1, a]⟩ [1, 0] x h (ix2 u q) = x (ix2 q u) := by
  refine transpose_apply [1, 0] x h (ix2 u q) (ix2 q u) fun b => ?_
  match b with
  | ⟨0, _⟩ => rfl
  | ⟨1, _⟩ => rfl

/-- A [1, b] row broadcast to [a, b] reads, at (p, q), the row's entry (0, q). -/
theorem broadcastTo_1b_ab_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

end RowLayout

end
-- ==== Proof.EdgeMix.lean ====
/-
  The second kernel region mixes two [50000, 128] arrays column by column and scales the mix row by row: the
  grid's ten points each take a block of 5000 rows of both arrays and of a one-column array, together with two
  whole [1, 128] rows of weights, and write back two blocks: the mix, whose entry (p, q) is the first weight's
  entry q times the first array's entry plus the second weight's entry q times the second array's entry, and the
  mix with every row multiplied by its own column entry.  Put together these are two whole arrays, each one
  function of the five operands index by index.
-/
import proofs.«121313_j22393959481939_1_alg».proof.Proof.Gen.KernelIdeal.Frame
import proofs.«121313_j22393959481939_1_alg».proof.Proof.LibKeepdims
import proofs.«121313_j22393959481939_1_alg».proof.Proof.LibRowLayout
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.EdgeMix

open Cert.KernelIdeal Cert.KernelIdeal.Gen

variable (V : (c : Dev nD) → (b : Ref sig .tc) → Buf (Elt Ideal) ((c : Thread nD τ).loc b))

/-- The region's operands as the region finds them, each at its literal type. -/
abbrev rarr (c : Dev nD) : Vec Ideal S50000x128 .f32 := V c main_v20
abbrev yarr (c : Dev nD) : Vec Ideal S50000x128 .f32 := V c main_arg1
abbrev earr (c : Dev nD) : Vec Ideal S50000x1 .f32 := V c main_v29
abbrev w0arr (c : Dev nD) : Vec Ideal S1x128 .f32 := V c main_v41
abbrev w1arr (c : Dev nD) : Vec Ideal S1x128 .f32 := V c main_v42

theorem hz : (![0, 0] : Fin 2 → Nat) = fun _ => 0 := funext fun a => by fin_cases a <;> rfl

/-- The column-weighted mix of two arrays. -/
def mixed (r y : Vec Ideal S50000x128 .f32) (s0 s1 : Vec Ideal S1x128 .f32) : Vec Ideal S50000x128 .f32 :=
  fun i => s0 (ix2 (0 : Fin 1) (i 1)) * r i + s1 (ix2 (0 : Fin 1) (i 1)) * y i

/-- The mix with every row multiplied by that row's entry of the column `e`. -/
def mixedScaled (r y : Vec Ideal S50000x128 .f32) (s0 s1 : Vec Ideal S1x128 .f32) (e : Vec Ideal S50000x1 .f32) :
    Vec Ideal S50000x128 .f32 :=
  fun i => mixed r y s0 s1 i * e (ix2 (i 0) (0 : Fin 1))

theorem mixed_apply (r y : Vec Ideal S50000x128 .f32) (s0 s1 : Vec Ideal S1x128 .f32) (p : Fin 50000) (q : Fin 128) :
    mixed r y s0 s1 (ix2 p q) = s0 (ix2 (0 : Fin 1) q) * r (ix2 p q) + s1 (ix2 (0 : Fin 1) q) * y (ix2 p q) := rfl

theorem mixedScaled_apply (r y : Vec Ideal S50000x128 .f32) (s0 s1 : Vec Ideal S1x128 .f32) (e : Vec Ideal S50000x1 .f32)
    (p : Fin 50000) (q : Fin 128) :
    mixedScaled r y s0 s1 e (ix2 p q) = mixed r y s0 s1 (ix2 p q) * e (ix2 p (0 : Fin 1)) := rfl

/-- The first stored value at (p, q): the two weighted block entries added. -/
theorem pay1_apply (v0 : Vec Ideal S1x128 .f32) (v2 : Vec Ideal S5000x128 .f32) (v6 : Vec Ideal S1x128 .f32)
    (v8 : Vec Ideal S5000x128 .f32) (p : Fin 5000) (q : Fin 128) :
    k1_pay1 v0 v2 v6 v8 (ix2 p q)
      = v0 (ix2 (0 : Fin 1) q) * v2 (ix2 p q) + v6 (ix2 (0 : Fin 1) q) * v8 (ix2 p q) := by
  unfold k1_pay1
  show broadcastTo S5000x128 (shapeCast S1x128 v0 shapeCasts_S1x128_S1x128) broadcasts_S1x128_S5000x128 (ix2 p q)
        * shapeCast S5000x128 v2 shapeCasts_S5000x128_S5000x128 (ix2 p q)
      + broadcastTo S5000x128 (shapeCast S1x128 v6 shapeCasts_S1x128_S1x128) broadcasts_S1x128_S5000x128 (ix2 p q)
        * v8 (ix2 p q) = _
  rw [RowLayout.broadcastTo_1b_ab_apply, RowLayout.broadcastTo_1b_ab_apply, shapeCast_self, shapeCast_self, shapeCast_self]

/-- The second stored value at (p, q): the first times the column block's entry of row p. -/
theorem pay2_apply (v0 : Vec Ideal S1x128 .f32) (v2 : Vec Ideal S5000x128 .f32) (v6 : Vec Ideal S1x128 .f32)
    (v8 : Vec Ideal S5000x128 .f32) (v13 : Vec Ideal S5000x1 .f32) (p : Fin 5000) (q : Fin 128) :
    k1_pay2 v0 v2 v6 v8 v13 (ix2 p q) = k1_pay1 v0 v2 v6 v8 (ix2 p q) * v13 (ix2 p (0 : Fin 1)) := by
  unfold k1_pay2
  show k1_pay1 v0 v2 v6 v8 (ix2 p q)
      * broadcastTo S5000x128 (shapeCast S5000x1 v13 shapeCasts_S5000x1_S5000x1) broadcasts_S5000x1_S5000x128 (ix2 p q) = _
  rw [KeepdimsLayout.broadcastTo_a1_ab_apply, shapeCast_self]

/-- The printed index maps over the grid: a row-blocked window's block index is the point itself on the row axis
    and 0 on the other; the two weight rows are fetched whole, at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point `t` writes back through window 5 is block `t` of the mix. -/
theorem flushed5_eq (c : Dev nD) (t : Fin cfg1.N) :
    (dat1 V c).flushed 5 t = ((cfg1.win 5).blk t).view.read (Elt Ideal)
      (mixed (rarr V c) (yarr V c) (w0arr V c) (w1arr V c)) := by
  show (cfg1.win 5).cut (grid1.coords t) ((dat1 V c).after 5 t) = _
  rw [after1_5]
  unfold out1_5
  rw [View.canon_unit_zero hz]
  simp only [View.ld_unit_zero (S := S5000x128) hz, View.ld_unit_zero (S := S1x128) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  show k1_pay1 (iblk1 V c 3 t) (iblk1 V c 0 t) (iblk1 V c 4 t) (iblk1 V c 1 t) (ix2 p q)
    = mixed (rarr V c) (yarr V c) (w0arr V c) (w1arr V c) (((cfg1.win 5).blk t).view.emb (ix2 p q))
  refine (pay1_apply (iblk1 V c 3 t) (iblk1 V c 0 t) (iblk1 V c 4 t) (iblk1 V c 1 t) p q).trans ?_
  show w0arr V c (((cfg1.win 3).blk t).view.emb (ix2 (0 : Fin 1) q)) * rarr V c (((cfg1.win 0).blk t).view.emb (ix2 p q))
      + w1arr V c (((cfg1.win 4).blk t).view.emb (ix2 (0 : Fin 1) q)) * yarr V c (((cfg1.win 1).blk t).view.emb (ix2 p q))
    = w0arr V c (ix2 (0 : Fin 1) ((((cfg1.win 5).blk t).view.emb (ix2 p q)) 1)) * rarr V c (((cfg1.win 5).blk t).view.emb (ix2 p q))
      + w1arr V c (ix2 (0 : Fin 1) ((((cfg1.win 5).blk t).view.emb (ix2 p q)) 1)) * yarr V c (((cfg1.win 5).blk t).view.emb (ix2 p q))
  have h0 : ((cfg1.win 0).blk t).view.emb (ix2 p q) = ((cfg1.win 5).blk t).view.emb (ix2 p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have h1 : ((cfg1.win 1).blk t).view.emb (ix2 p q) = ((cfg1.win 5).blk t).view.emb (ix2 p q) := by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * q.val = win1_5.index t (1 : Fin 2) * 128 + 1 * q.val; omega
  have h3 : ((cfg1.win 3).blk t).view.emb (ix2 (0 : Fin 1) q)
      = ix2 (0 : Fin 1) ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega
  have h4 : ((cfg1.win 4).blk t).view.emb (ix2 (0 : Fin 1) q)
      = ix2 (0 : Fin 1) ((((cfg1.win 5).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega
  rw [h0, h1, h3, h4]
  rfl

/-- What point `t` writes back through window 6 is block `t` of the scaled mix. -/
theorem flushed6_eq (c : Dev nD) (t : Fin cfg1.N) :
    (dat1 V c).flushed 6 t = ((cfg1.win 6).blk t).view.read (Elt Ideal)
      (mixedScaled (rarr V c) (yarr V c) (w0arr V c) (w1arr V c) (earr V c)) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz, View.ld_unit_zero (S := S5000x1) hz]
  obtain ⟨e0, e1, e2, e3, e4, e5, e6, e7, e8, e9, e10, e11, e12, e13⟩ := idx_facts t
  funext j
  obtain ⟨p, q, rfl⟩ : ∃ (p : Fin 5000) (q : Fin 128), j = ix2 p q := ⟨j 0, j 1, eq_ix2 j⟩
  show k1_pay2 (iblk1 V c 3 t) (iblk1 V c 0 t) (iblk1 V c 4 t) (iblk1 V c 1 t) (iblk1 V c 2 t) (ix2 p q)
    = mixedScaled (rarr V c) (yarr V c) (w0arr V c) (w1arr V c) (earr V c) (((cfg1.win 6).blk t).view.emb (ix2 p q))
  refine (pay2_apply (iblk1 V c 3 t) (iblk1 V c 0 t) (iblk1 V c 4 t) (iblk1 V c 1 t) (iblk1 V c 2 t) p q).trans ?_
  refine (congrArg (· * (iblk1 V c 2 t : Vec Ideal S5000x1 .f32) (ix2 p (0 : Fin 1)))
    (pay1_apply (iblk1 V c 3 t) (iblk1 V c 0 t) (iblk1 V c 4 t) (iblk1 V c 1 t) p q)).trans ?_
  show (w0arr V c (((cfg1.win 3).blk t).view.emb (ix2 (0 : Fin 1) q)) * rarr V c (((cfg1.win 0).blk t).view.emb (ix2 p q))
      + w1arr V c (((cfg1.win 4).blk t).view.emb (ix2 (0 : Fin 1) q)) * yarr V c (((cfg1.win 1).blk t).view.emb (ix2 p q)))
      * earr V c (((cfg1.win 2).blk t).view.emb (ix2 p (0 : Fin 1)))
    = (w0arr V c (ix2 (0 : Fin 1) ((((cfg1.win 6).blk t).view.emb (ix2 p q)) 1)) * rarr V c (((cfg1.win 6).blk t).view.emb (ix2 p q))
      + w1arr V c (ix2 (0 : Fin 1) ((((cfg1.win 6).blk t).view.emb (ix2 p q)) 1)) * yarr V c (((cfg1.win 6).blk t).view.emb (ix2 p q)))
      * earr V c (ix2 ((((cfg1.win 6).blk t).view.emb (ix2 p q)) 0) (0 : Fin 1))
  have h0 : ((cfg1.win 0).blk t).view.emb (ix2 p q) = ((cfg1.win 6).blk t).view.emb (ix2 p q) := by
    funext a; apply Fin.ext
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * q.val = win1_6.index t (1 : Fin 2) * 128 + 1 * q.val; omega
  have h1 : ((cfg1.win 1).blk t).view.emb (ix2 p q) = ((cfg1.win 6).blk t).view.emb (ix2 p q) := by
    funext a; apply Fin.ext
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * q.val = win1_6.index t (1 : Fin 2) * 128 + 1 * q.val; omega
  have h2 : ((cfg1.win 2).blk t).view.emb (ix2 p (0 : Fin 1))
      = ix2 ((((cfg1.win 6).blk t).view.emb (ix2 p q)) 0) (0 : Fin 1) := by
    funext a; apply Fin.ext
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  have h3 : ((cfg1.win 3).blk t).view.emb (ix2 (0 : Fin 1) q)
      = ix2 (0 : Fin 1) ((((cfg1.win 6).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 128 + 1 * q.val = win1_6.index t (1 : Fin 2) * 128 + 1 * q.val; omega
  have h4 : ((cfg1.win 4).blk t).view.emb (ix2 (0 : Fin 1) q)
      = ix2 (0 : Fin 1) ((((cfg1.win 6).blk t).view.emb (ix2 p q)) 1) := by
    funext a; apply Fin.ext
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  rw [h0, h1, h2, h3, h4]
  rfl

/-- An index of either result array is in point `t`'s block iff each coordinate is in the block's range on its axis. -/
theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v43_0).slice (win1_5.rect t)).set ↔ _
  rw [View.set_slice_whole, Rect.mem_set_unit]
  exact Iff.rfl

theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43_1).slice (win1_6.rect t)).set ↔ _
  rw [View.set_slice_whole, Rect.mem_set_unit]
  exact Iff.rfl

/-- Every row lies in the block of the point that its row number divided by 5000 names. -/
theorem cover5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, e10, e11, -, -⟩ := idx_facts t
  have e10' : win1_5.index t (0 : Fin 2) = (i 0).val / 5000 := e10
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, -, -, e12, e13⟩ := idx_facts t
  have e12' : win1_6.index t (0 : Fin 2) = (i 0).val / 5000 := e12
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The region's first result array: the column-weighted mix of its first two operands. -/
theorem final5 (c : Dev nD) : (dat1 V c).arrAt 5 cfg1.N = mixed (rarr V c) (yarr V c) (w0arr V c) (w1arr V c) :=
  (dat1 V c).arrAt_eq_of_cover 5 (mixed (rarr V c) (yarr V c) (w0arr V c) (w1arr V c)) (fun t _ => flushed5_eq V c t) cover5

/-- The region's second result array: the mix with its rows scaled by the column operand. -/
theorem final6 (c : Dev nD) :
    (dat1 V c).arrAt 6 cfg1.N = mixedScaled (rarr V c) (yarr V c) (w0arr V c) (w1arr V c) (earr V c) :=
  (dat1 V c).arrAt_eq_of_cover 6 (mixedScaled (rarr V c) (yarr V c) (w0arr V c) (w1arr V c) (earr V c))
    (fun t _ => flushed6_eq V c t) cover6

end Cert.KernelIdeal.EdgeMix

end
-- ==== Proof.NodeMix.lean ====
/-
  The third kernel region mixes two [100000, 128] arrays column by column: the grid's ten points each take a block
  of 10000 rows of both arrays, together with two whole [1, 128] rows of weights, and write back the block whose
  entry (p, q) is the first weight's entry q times the first array's entry plus the second weight's entry q times
  the second array's entry.  Put together, the result array is that one function of the four operands index by index.
-/
import proofs.«121313_j22393959481939_1_alg».proof.Proof.Gen.KernelIdeal.Frame
import proofs.«121313_j22393959481939_1_alg».proof.Proof.LibKeepdims
import proofs.«121313_j22393959481939_1_alg».proof.Proof.LibRowLayout
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.NodeMix

open Cert.KernelIdeal Cert.KernelIdeal.Gen

variable (V : (c : Dev nD) → (b : Ref sig .tc) → Buf (Elt Ideal) ((c : Thread nD τ).loc b))

/-- The region's operands as the region finds them, each at its literal type. -/
abbrev rarr (c : Dev nD) : Vec Ideal S100000x128 .f32 := V c main_v53
abbrev xarr (c : Dev nD) : Vec Ideal S100000x128 .f32 := V c main_arg0
abbrev w0arr (c : Dev nD) : Vec Ideal S1x128 .f32 := V c main_v41
abbrev w1arr (c : Dev nD) : Vec Ideal S1x128 .f32 := V c main_v42

theorem hz : (![0, 0] : Fin 2 → Nat) = fun _ => 0 := funext fun a => by fin_cases a <;> rfl

/-- The column-weighted mix of two arrays. -/
def mixed (r x : Vec Ideal S100000x128 .f32) (s0 s1 : Vec Ideal S1x128 .f32) : Vec Ideal S100000x128 .f32 :=
  fun i => s0 (ix2 (0 : Fin 1) (i 1)) * r i + s1 (ix2 (0 : Fin 1) (i 1)) * x i

theorem mixed_apply (r x : Vec Ideal S100000x128 .f32) (s0 s1 : Vec Ideal S1x128 .f32) (p : Fin 100000) (q : Fin 128) :
    mixed r x s0 s1 (ix2 p q) = s0 (ix2 (0 : Fin 1) q) * r (ix2 p q) + s1 (ix2 (0 : Fin 1) q) * x (ix2 p q) := rfl

/-- The stored value at (p, q): the two weighted block entries added. -/
theorem pay_apply (v0 : Vec Ideal S1x128 .f32) (v2 : Vec Ideal S10000x128 .f32) (v6 : Vec Ideal S1x128 .f32)
    (v8 : Vec Ideal S10000x128 .f32) (p : Fin 10000) (q : Fin 128) :
    k2_pay1 v0 v2 v6 v8 (ix2 p q)
      = v0 (ix2 (0 : Fin 1) q) * v2 (ix2 p q) + v6 (ix2 (0 : Fin 1) q) * v8 (ix2 p q) := by
  unfold k2_pay1
  show broadcastTo S10000x128 (shapeCast S1x128 v0 shapeCasts_S1x128_S1x128) broadcasts_S1x128_S10000x128 (ix2 p q)
        * shapeCast S10000x128 v2 shapeCasts_S10000x128_S10000x128 (ix2 p q)
      + broadcastTo S10000x128 (shapeCast S1x128 v6 shapeCasts_S1x128_S1x128) broadcasts_S1x128_S10000x128 (ix2 p q)
        * v8 (ix2 p q) = _
  rw [RowLayout.broadcastTo_1b_ab_apply, RowLayout.broadcastTo_1b_ab_apply, shapeCast_self, shapeCast_self, shapeCast_self]

/-- The printed index maps over the grid: a row-blocked window's block index is the point itself on the row axis
    and 0 on the other; the two weight rows are fetched whole, at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the mix. -/
theorem flushed_eq (c : Dev nD) (t : Fin cfg2.N) :
    (dat2 V c).flushed 4 t = ((cfg2.win 4).blk t).view.read (Elt Ideal)
      (mixed (rarr V c) (xarr V c) (w0arr V c) (w1arr V c)) := by
  show (cfg2.win 4).cut (grid2.coords t) ((dat2 V c).after 4 t) = _
  rw [after2_4]
  unfold out2_4
  rw [View.canon_unit_zero hz]
  simp only [View.ld_unit_zero (S := S10000x128) hz, View.ld_unit_zero (S := S1x128) hz]
  obtain ⟨e0, e1, e2, e3, e4, e5, e6, e7, e8, e9⟩ := idx_facts t
  funext j
  obtain ⟨p, q, rfl⟩ : ∃ (p : Fin 10000) (q : Fin 128), j = ix2 p q := ⟨j 0, j 1, eq_ix2 j⟩
  show k2_pay1 (iblk2 V c 2 t) (iblk2 V c 0 t) (iblk2 V c 3 t) (iblk2 V c 1 t) (ix2 p q)
    = mixed (rarr V c) (xarr V c) (w0arr V c) (w1arr V c) (((cfg2.win 4).blk t).view.emb (ix2 p q))
  refine (pay_apply (iblk2 V c 2 t) (iblk2 V c 0 t) (iblk2 V c 3 t) (iblk2 V c 1 t) p q).trans ?_
  show w0arr V c (((cfg2.win 2).blk t).view.emb (ix2 (0 : Fin 1) q)) * rarr V c (((cfg2.win 0).blk t).view.emb (ix2 p q))
      + w1arr V c (((cfg2.win 3).blk t).view.emb (ix2 (0 : Fin 1) q)) * xarr V c (((cfg2.win 1).blk t).view.emb (ix2 p q))
    = w0arr V c (ix2 (0 : Fin 1) ((((cfg2.win 4).blk t).view.emb (ix2 p q)) 1)) * rarr V c (((cfg2.win 4).blk t).view.emb (ix2 p q))
      + w1arr V c (ix2 (0 : Fin 1) ((((cfg2.win 4).blk t).view.emb (ix2 p q)) 1)) * xarr V c (((cfg2.win 4).blk t).view.emb (ix2 p q))
  have h0 : ((cfg2.win 0).blk t).view.emb (ix2 p q) = ((cfg2.win 4).blk t).view.emb (ix2 p q) := by
    funext a; apply Fin.ext
    match a with
    | ⟨0, _⟩ => show win2_0.index t (0 : Fin 2) * 10000 + 1 * p.val = win2_4.index t (0 : Fin 2) * 10000 + 1 * p.val; omega
    | ⟨1, _⟩ => show win2_0.index t (1 : Fin 2) * 128 + 1 * q.val = win2_4.index t (1 : Fin 2) * 128 + 1 * q.val; omega
  have h1 : ((cfg2.win 1).blk t).view.emb (ix2 p q) = ((cfg2.win 4).blk t).view.emb (ix2 p q) := by
    funext a; apply Fin.ext
    match a with
    | ⟨0, _⟩ => show win2_1.index t (0 : Fin 2) * 10000 + 1 * p.val = win2_4.index t (0 : Fin 2) * 10000 + 1 * p.val; omega
    | ⟨1, _⟩ => show win2_1.index t (1 : Fin 2) * 128 + 1 * q.val = win2_4.index t (1 : Fin 2) * 128 + 1 * q.val; omega
  have h2 : ((cfg2.win 2).blk t).view.emb (ix2 (0 : Fin 1) q)
      = ix2 (0 : Fin 1) ((((cfg2.win 4).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_4.index t (1 : Fin 2) * 128 + 1 * q.val; omega
  have h3 : ((cfg2.win 3).blk t).view.emb (ix2 (0 : Fin 1) q)
      = ix2 (0 : Fin 1) ((((cfg2.win 4).blk t).view.emb (ix2 p q)) 1) := by
    funext a; apply Fin.ext
    match a with
    | ⟨0, _⟩ => show win2_3.index t (0 : Fin 2) * 1 + 1 * 0 = 0; omega
    | ⟨1, _⟩ => show win2_3.index t (1 : Fin 2) * 128 + 1 * q.val = win2_4.index t (1 : Fin 2) * 128 + 1 * q.val; omega
  rw [h0, h1, h2, h3]
  rfl

/-- An index of the result array is in point `t`'s block iff each coordinate is in the block's range on its axis. -/
theorem mem_blk (t : Fin cfg2.N) (i : S100000x128.Idx) :
    i ∈ ((cfg2.win 4).blk t).view.set ↔ ∀ a : Fin 2, win2_4.index t a * S10000x128.size a ≤ (i a).val ∧ (i a).val < win2_4.index t a * S10000x128.size a + S10000x128.size a := by
  show i ∈ ((View.whole main_v54).slice (win2_4.rect t)).set ↔ _
  rw [View.set_slice_whole, Rect.mem_set_unit]
  exact Iff.rfl

/-- Every row lies in the block of the point that its row number divided by 10000 names. -/
theorem cover (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 10 := N_2
  let t : Fin cfg2.N := ⟨(i 0).val / 10000, by rw [hN]; omega⟩
  obtain ⟨-, -, -, -, -, -, -, -, e8, e9⟩ := idx_facts t
  have e8' : win2_4.index t (0 : Fin 2) = (i 0).val / 10000 := e8
  refine ⟨t, flush2_4 t, ?_⟩
  rw [mem_blk]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 128 ≤ (i 1).val ∧ (i 1).val < win2_4.index t (1 : Fin 2) * 128 + 128; omega

/-- The region's result array: the column-weighted mix of its first two operands. -/
theorem final (c : Dev nD) : (dat2 V c).arrAt 4 cfg2.N = mixed (rarr V c) (xarr V c) (w0arr V c) (w1arr V c) :=
  (dat2 V c).arrAt_eq_of_cover 4 (mixed (rarr V c) (xarr V c) (w0arr V c) (w1arr V c)) (fun t _ => flushed_eq V c t) cover

end Cert.KernelIdeal.NodeMix

end
-- ==== Proof.RefStages.lean ====
/-
  The reference's two gather-and-sum stages as functions of the array they gather from, and its four arithmetic
  stages read at an index.  The reference scales the rows of X by the inverse node degrees, gathers rows by node
  index and sums them by edge index, mixes the sums with Y under the two softmax weight rows, scales the rows of the
  mix by the inverse edge degrees, gathers rows by edge index and sums them by node index, and mixes those sums with
  X under the same two weight rows.  Each arithmetic stage's entry (p, q) takes the entry (p, q) of its array operands,
  entry p of a degree vector and entry (0, q) of a weight row.
-/
import proofs.«121313_j22393959481939_1_alg».proof.Proof.RefRead
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.Sums

open Cert.ReferenceIdeal Cert.ReferenceIdeal.ReadP

section AnyFloats
variable {F : FTy → Type} [FloatOps F]

/-- Rows of `xn` gathered by node index and summed into their edges. -/
def edgeSum (xn : (⟨S100000x128, .f32⟩ : BufTy).Contents (Elt F)) (x3 x4 : (⟨S1600000, .i32⟩ : BufTy).Contents (Elt F)) :
    (⟨S50000x128, .f32⟩ : BufTy).Contents (Elt F) :=
  Host.scatterAdd scatter_S50000x128_S1600000x1_S1600000x128_1_0_0_1 (val_main_v19 (F := F)) (val_main_v20 (F := F) x4)
    (Host.gather gather_S100000x128_S1600000x1_S1600000x128_1_0_n_n_0_1_1128 xn (val_main_v17 (F := F) x3))

/-- Rows of `en` gathered by edge index and summed into their nodes. -/
def nodeSum (en : (⟨S50000x128, .f32⟩ : BufTy).Contents (Elt F)) (x3 x4 : (⟨S1600000, .i32⟩ : BufTy).Contents (Elt F)) :
    (⟨S100000x128, .f32⟩ : BufTy).Contents (Elt F) :=
  Host.scatterAdd scatter_S100000x128_S1600000x1_S1600000x128_1_0_0_1 (val_main_v62 (F := F)) (val_main_v63 (F := F) x3)
    (Host.gather gather_S50000x128_S1600000x1_S1600000x128_1_0_n_n_0_1_1128 en (val_main_v60 (F := F) x4))

theorem val_main_v21_eq (x0 : (⟨S100000x128, .f32⟩ : BufTy).Contents (Elt F)) (x3 x4 : (⟨S1600000, .i32⟩ : BufTy).Contents (Elt F)) :
    val_main_v21 (F := F) x0 x3 x4 = edgeSum (val_main_v11 (F := F) x0 x3) x3 x4 := rfl

theorem val_main_v64_eq (x0 : (⟨S100000x128, .f32⟩ : BufTy).Contents (Elt F)) (x1 : (⟨S50000x128, .f32⟩ : BufTy).Contents (Elt F))
    (x2 : (⟨S2x128, .f32⟩ : BufTy).Contents (Elt F)) (x3 x4 : (⟨S1600000, .i32⟩ : BufTy).Contents (Elt F)) :
    val_main_v64 (F := F) x0 x1 x2 x3 x4 = nodeSum (val_main_v54 (F := F) x0 x1 x2 x3 x4) x3 x4 := rfl

/-- The reference slices each weight row off the softmax twice; the two slices are one term. -/
theorem val_main_v65_eq (x2 : (⟨S2x128, .f32⟩ : BufTy).Contents (Elt F)) : val_main_v65 (F := F) x2 = val_main_v33 (F := F) x2 := rfl
theorem val_main_v70_eq (x2 : (⟨S2x128, .f32⟩ : BufTy).Contents (Elt F)) : val_main_v70 (F := F) x2 = val_main_v38 (F := F) x2 := rfl

end AnyFloats

variable (x0 : (⟨S100000x128, .f32⟩ : BufTy).Contents (Elt Ideal)) (x1 : (⟨S50000x128, .f32⟩ : BufTy).Contents (Elt Ideal))
  (x2 : (⟨S2x128, .f32⟩ : BufTy).Contents (Elt Ideal)) (x3 x4 : (⟨S1600000, .i32⟩ : BufTy).Contents (Elt Ideal))

/-- The scaled X at (p, q): X's entry times the inverse degree of node p. -/
theorem scaledX_apply (p : Fin 100000) (q : Fin 128) :
    val_main_v11 (F := Ideal) x0 x3 (ix2 p q) = x0 (ix2 p q) * val_main_v8 (F := Ideal) x3 (ix1 p) := by
  rw [val_main_v11_apply, val_main_v10_apply, val_main_v9_apply]
  have e : idx_main_v9 (idx_main_v10 (ix2 p q)) = ix1 p := funext fun a => match a with | ⟨0, _⟩ => rfl
  rw [e]
  rfl

/-- The edge mix at (p, q). -/
theorem edgeMix_apply (p : Fin 50000) (q : Fin 128) :
    val_main_v43 (F := Ideal) x0 x1 x2 x3 x4 (ix2 p q)
      = val_main_v33 (F := Ideal) x2 (ix2 (0 : Fin 1) q) * val_main_v21 (F := Ideal) x0 x3 x4 (ix2 p q)
        + val_main_v38 (F := Ideal) x2 (ix2 (0 : Fin 1) q) * x1 (ix2 p q) := by
  rw [val_main_v43_apply, val_main_v37_apply, val_main_v42_apply, val_main_v36_apply, val_main_v35_apply, val_main_v34_apply,
    val_main_v41_apply, val_main_v40_apply, val_main_v39_apply]
  have e0 : idx_main_v34 (idx_main_v35 (idx_main_v36 (ix2 p q))) = ix2 (0 : Fin 1) q :=
    funext fun a => match a with | ⟨0, _⟩ => rfl | ⟨1, _⟩ => Fin.ext (Nat.mod_eq_of_lt q.isLt)
  have e1 : idx_main_v39 (idx_main_v40 (idx_main_v41 (ix2 p q))) = ix2 (0 : Fin 1) q :=
    funext fun a => match a with | ⟨0, _⟩ => rfl | ⟨1, _⟩ => Fin.ext (Nat.mod_eq_of_lt q.isLt)
  rw [e0, e1]
  rfl

/-- The degree-scaled edge mix at (p, q). -/
theorem edgeMixScaled_apply (p : Fin 50000) (q : Fin 128) :
    val_main_v54 (F := Ideal) x0 x1 x2 x3 x4 (ix2 p q)
      = val_main_v43 (F := Ideal) x0 x1 x2 x3 x4 (ix2 p q) * val_main_v51 (F := Ideal) x4 (ix1 p) := by
  rw [val_main_v54_apply, val_main_v53_apply, val_main_v52_apply]
  have e : idx_main_v52 (idx_main_v53 (ix2 p q)) = ix1 p := funext fun a => match a with | ⟨0, _⟩ => rfl
  rw [e]
  rfl

/-- The node mix at (p, q). -/
theorem nodeMix_apply (p : Fin 100000) (q : Fin 128) :
    val_main_v75 (F := Ideal) x0 x1 x2 x3 x4 (ix2 p q)
      = val_main_v33 (F := Ideal) x2 (ix2 (0 : Fin 1) q) * val_main_v64 (F := Ideal) x0 x1 x2 x3 x4 (ix2 p q)
        + val_main_v38 (F := Ideal) x2 (ix2 (0 : Fin 1) q) * x0 (ix2 p q) := by
  rw [val_main_v75_apply, val_main_v69_apply, val_main_v74_apply, val_main_v68_apply, val_main_v67_apply, val_main_v66_apply,
    val_main_v73_apply, val_main_v72_apply, val_main_v71_apply]
  have e0 : idx_main_v66 (idx_main_v67 (idx_main_v68 (ix2 p q))) = ix2 (0 : Fin 1) q :=
    funext fun a => match a with | ⟨0, _⟩ => rfl | ⟨1, _⟩ => Fin.ext (Nat.mod_eq_of_lt q.isLt)
  have e1 : idx_main_v71 (idx_main_v72 (idx_main_v73 (ix2 p q))) = ix2 (0 : Fin 1) q :=
    funext fun a => match a with | ⟨0, _⟩ => rfl | ⟨1, _⟩ => Fin.ext (Nat.mod_eq_of_lt q.isLt)
  rw [e0, e1, val_main_v65_eq, val_main_v70_eq]
  rfl

end Cert.ReferenceIdeal.Sums

end
-- ==== Proof.Stages.lean ====
/-
  The kernel program's buffers at the boundaries of its three kernel regions, read back through the host operations
  between them.  Each host stretch applies to its operands the very operations the reference applies (the degree
  counts and their guarded reciprocals, the softmax of the two weight rows and its two slices, a gather of rows
  followed by a segment sum), so each buffer a region takes is the reference's own stage function of the launch
  arguments, or of the array the region before it left.
-/
import proofs.«121313_j22393959481939_1_alg».proof.Proof.Gen.KernelIdeal.Frame
import proofs.«121313_j22393959481939_1_alg».proof.Proof.RefStages
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen
open Cert.ReferenceIdeal.ReadP (val_main_v8 val_main_v51 val_main_v33 val_main_v38)
open Cert.ReferenceIdeal.Sums (edgeSum nodeSum)

variable {F : FTy → Type} [FloatOps F]
variable (m : (ℓ : Loc nD τ sig) → Buf (Elt F) ℓ) (ρ : Dev nD → PrngReg)

/-- Read a buffer at the first region's entry back through the host operations before it. -/
local macro "walk3" : tactic => `(tactic| (dsimp only [W3, W2, W1, hostOps0_2, hostOps0_1, hostOps0]; after_results))
/-- Read a buffer at the second region's entry back to the first region's exit. -/
local macro "walk7" : tactic => `(tactic| (dsimp only [W7, W6, W5, hostOps1_2, hostOps1_1, hostOps1]; after_results_simp))
/-- Read a buffer at the third region's entry back to the second region's exit. -/
local macro "walk9" : tactic => `(tactic| (dsimp only [W9, hostOps2]; after_results_simp))

/-! ## Up to the first region -/

theorem at3_arg0 (c : Dev nD) : W3 m ρ c (Proc.devRef .tc main_arg0) = m ((c : Thread nD τ).loc main_arg0) := by walk3
theorem at3_arg1 (c : Dev nD) : W3 m ρ c (Proc.devRef .tc main_arg1) = m ((c : Thread nD τ).loc main_arg1) := by walk3
theorem at3_arg2 (c : Dev nD) : W3 m ρ c (Proc.devRef .tc main_arg2) = m ((c : Thread nD τ).loc main_arg2) := by walk3
theorem at3_arg3 (c : Dev nD) : W3 m ρ c (Proc.devRef .tc main_arg3) = m ((c : Thread nD τ).loc main_arg3) := by walk3
theorem at3_arg4 (c : Dev nD) : W3 m ρ c (Proc.devRef .tc main_arg4) = m ((c : Thread nD τ).loc main_arg4) := by walk3

/-- The first region's column operand: the inverse node degrees as one column. -/
theorem at3_v9 (c : Dev nD) : W3 m ρ c (Proc.devRef .tc main_v9)
    = shapeCast S100000x1 (val_main_v8 (F := F) (m ((c : Thread nD τ).loc main_arg3))) shapeCasts_S100000_S100000x1 := by
  walk3
  simp only [TRef.ofBuf, TRef.toBuf, cast_eq]
  rfl

/-! ## Across the first region: every buffer but its result array is as it was -/

theorem at4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (at3_arg0 m ρ c)
theorem at4_arg1 (c : Dev nD) : W4 m ρ c (Proc.devRef .tc main_arg1) = m ((c : Thread nD τ).loc main_arg1) :=
  (W4_of_ne m ρ c main_arg1 (by decide)).trans (at3_arg1 m ρ c)
theorem at4_arg2 (c : Dev nD) : W4 m ρ c (Proc.devRef .tc main_arg2) = m ((c : Thread nD τ).loc main_arg2) :=
  (W4_of_ne m ρ c main_arg2 (by decide)).trans (at3_arg2 m ρ c)
theorem at4_arg3 (c : Dev nD) : W4 m ρ c (Proc.devRef .tc main_arg3) = m ((c : Thread nD τ).loc main_arg3) :=
  (W4_of_ne m ρ c main_arg3 (by decide)).trans (at3_arg3 m ρ c)
theorem at4_arg4 (c : Dev nD) : W4 m ρ c (Proc.devRef .tc main_arg4) = m ((c : Thread nD τ).loc main_arg4) :=
  (W4_of_ne m ρ c main_arg4 (by decide)).trans (at3_arg4 m ρ c)

/-! ## Up to the second region -/

theorem at7_arg0 (c : Dev nD) : W7 m ρ c (Proc.devRef .tc main_arg0) = m ((c : Thread nD τ).loc main_arg0) := by
  walk7; exact at4_arg0 m ρ c
theorem at7_arg1 (c : Dev nD) : W7 m ρ c (Proc.devRef .tc main_arg1) = m ((c : Thread nD τ).loc main_arg1) := by
  walk7; exact at4_arg1 m ρ c
theorem at7_arg3 (c : Dev nD) : W7 m ρ c (Proc.devRef .tc main_arg3) = m ((c : Thread nD τ).loc main_arg3) := by
  walk7; exact at4_arg3 m ρ c
theorem at7_arg4 (c : Dev nD) : W7 m ρ c (Proc.devRef .tc main_arg4) = m ((c : Thread nD τ).loc main_arg4) := by
  walk7; exact at4_arg4 m ρ c

set_option maxHeartbeats 4000000 in
/-- The second region's first operand: the rows the first region left, gathered by node and summed by edge. -/
theorem at7_v20 (c : Dev nD) : W7 m ρ c (Proc.devRef .tc main_v20)
    = edgeSum (F := F) (W4 m ρ c (Proc.devRef .tc main_v10)) (m ((c : Thread nD τ).loc main_arg3)) (m ((c : Thread nD τ).loc main_arg4)) := by
  walk7
  rw [at4_arg3, at4_arg4]
  rfl

set_option maxHeartbeats 4000000 in
/-- Its column operand: the inverse edge degrees as one column. -/
theorem at7_v29 (c : Dev nD) : W7 m ρ c (Proc.devRef .tc main_v29)
    = shapeCast S50000x1 (val_main_v51 (F := F) (m ((c : Thread nD τ).loc main_arg4))) shapeCasts_S50000_S50000x1 := by
  walk7
  rw [at4_arg4]
  simp only [TRef.ofBuf, TRef.toBuf, cast_eq]
  rfl

set_option maxHeartbeats 4000000 in
/-- Its two weight rows: the two rows of the softmax of the weights. -/
theorem at7_v41 (c : Dev nD) : W7 m ρ c (Proc.devRef .tc main_v41) = val_main_v33 (F := F) (m ((c : Thread nD τ).loc main_arg2)) := by
  walk7
  rw [at4_arg2]
  rfl
set_option maxHeartbeats 4000000 in
theorem at7_v42 (c : Dev nD) : W7 m ρ c (Proc.devRef .tc main_v42) = val_main_v38 (F := F) (m ((c : Thread nD τ).loc main_arg2)) := by
  walk7
  rw [at4_arg2]
  rfl

/-! ## Across the second region -/

theorem at8_arg0 (c : Dev nD) : W8 m ρ c (Proc.devRef .tc main_arg0) = m ((c : Thread nD τ).loc main_arg0) :=
  (W8_of_ne m ρ c main_arg0 (by decide)).trans (at7_arg0 m ρ c)
theorem at8_arg3 (c : Dev nD) : W8 m ρ c (Proc.devRef .tc main_arg3) = m ((c : Thread nD τ).loc main_arg3) :=
  (W8_of_ne m ρ c main_arg3 (by decide)).trans (at7_arg3 m ρ c)
theorem at8_arg4 (c : Dev nD) : W8 m ρ c (Proc.devRef .tc main_arg4) = m ((c : Thread nD τ).loc main_arg4) :=
  (W8_of_ne m ρ c main_arg4 (by decide)).trans (at7_arg4 m ρ c)
theorem at8_v41 (c : Dev nD) : W8 m ρ c (Proc.devRef .tc main_v41) = val_main_v33 (F := F) (m ((c : Thread nD τ).loc main_arg2)) :=
  ((W8_arr m ρ c 3).trans (((dat1 (V7 m ρ) c).arrAt_in 3 rfl _).trans (A_eq1 (V7 m ρ) c 3))).trans (at7_v41 m ρ c)
theorem at8_v42 (c : Dev nD) : W8 m ρ c (Proc.devRef .tc main_v42) = val_main_v38 (F := F) (m ((c : Thread nD τ).loc main_arg2)) :=
  ((W8_arr m ρ c 4).trans (((dat1 (V7 m ρ) c).arrAt_in 4 rfl _).trans (A_eq1 (V7 m ρ) c 4))).trans (at7_v42 m ρ c)

/-! ## Up to the third region -/

theorem at9_arg0 (c : Dev nD) : W9 m ρ c (Proc.devRef .tc main_arg0) = m ((c : Thread nD τ).loc main_arg0) := by
  walk9; exact at8_arg0 m ρ c
theorem at9_v41 (c : Dev nD) : W9 m ρ c (Proc.devRef .tc main_v41) = val_main_v33 (F := F) (m ((c : Thread nD τ).loc main_arg2)) := by
  walk9; exact at8_v41 m ρ c
theorem at9_v42 (c : Dev nD) : W9 m ρ c (Proc.devRef .tc main_v42) = val_main_v38 (F := F) (m ((c : Thread nD τ).loc main_arg2)) := by
  walk9; exact at8_v42 m ρ c

set_option maxHeartbeats 4000000 in
/-- The third region's first operand: the rows the second region left, gathered by edge and summed by node. -/
theorem at9_v53 (c : Dev nD) : W9 m ρ c (Proc.devRef .tc main_v53)
    = nodeSum (F := F) (W8 m ρ c (Proc.devRef .tc main_v43_1)) (m ((c : Thread nD τ).loc main_arg3)) (m ((c : Thread nD τ).loc main_arg4)) := by
  walk9
  rw [at8_arg3, at8_arg4]
  rfl

/-- The second region's first result array is not written again. -/
theorem at10_v43_0 (c : Dev nD) : W10 m ρ c (Proc.devRef .tc main_v43_0) = W8 m ρ c (Proc.devRef .tc main_v43_0) := by
  refine (W10_of_ne m ρ c main_v43_0 (by decide)).trans ?_
  walk9

end Cert.KernelIdeal.Stages

end
-- ==== Proof.Result.lean ====
/-
  The kernel program's two results are the reference's.  Region by region: the first region's array is X with its
  rows scaled by the inverse node degrees, which is the reference's scaled X; so the second region's first operand,
  the same gather and segment sum of it, is the reference's edge sums, and with Y, the inverse edge degrees and the
  two softmax weight rows the region's two arrays are the reference's edge mix and degree-scaled edge mix; so the
  third region's first operand is the reference's node sums, and its result the reference's node mix.  No law of
  arithmetic is used: both sides apply the same products and sums in the same order at every index.
-/
import proofs.«121313_j22393959481939_1_alg».proof.Proof.KRun
import proofs.«121313_j22393959481939_1_alg».proof.Proof.RowScale
import proofs.«121313_j22393959481939_1_alg».proof.Proof.EdgeMix
import proofs.«121313_j22393959481939_1_alg».proof.Proof.NodeMix
import proofs.«121313_j22393959481939_1_alg».proof.Proof.Stages

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Stages
open Cert.ReferenceIdeal.ReadP (val_main_v8 val_main_v11 val_main_v21 val_main_v33 val_main_v38 val_main_v43 val_main_v51
  val_main_v54 val_main_v64 val_main_v75)
open Cert.ReferenceIdeal.Sums

variable (m : (ℓ : Loc nD τ sig) → Buf (Elt Ideal) ℓ) (ρ : Dev nD → PrngReg) (c : Dev nD)

/-- The first region leaves the reference's scaled X. -/
theorem scaledX_eq : W4 m ρ c (Proc.devRef .tc main_v10) = val_main_v11 (F := Ideal) (m ((c : Thread nD τ).loc main_arg0)) (m ((c : Thread nD τ).loc main_arg3)) := by
  refine (W4_arr m ρ c 2).trans ((RowScale.final (V3 m ρ) c).trans ?_)
  have hx : RowScale.xarr (V3 m ρ) c = ((m ((c : Thread nD τ).loc main_arg0)) : Vec Ideal S100000x128 .f32) := at3_arg0 m ρ c
  have hs : RowScale.sarr (V3 m ρ) c = shapeCast S100000x1 (val_main_v8 (F := Ideal) (m ((c : Thread nD τ).loc main_arg3))) shapeCasts_S100000_S100000x1 := at3_v9 m ρ c
  rw [hx, hs]
  funext i
  obtain ⟨p, q, rfl⟩ : ∃ (p : Fin 100000) (q : Fin 128), i = ix2 p q := ⟨i 0, i 1, eq_ix2 i⟩
  rw [RowScale.scaled_apply, scaledX_apply, KeepdimsLayout.shapeCast_a_a1_apply]

/-- The second region's first operand is the reference's edge sums. -/
theorem edgeSums_eq : W7 m ρ c (Proc.devRef .tc main_v20) = val_main_v21 (F := Ideal) (m ((c : Thread nD τ).loc main_arg0)) (m ((c : Thread nD τ).loc main_arg3)) (m ((c : Thread nD τ).loc main_arg4)) := by
  refine (at7_v20 m ρ c).trans ?_
  rw [scaledX_eq m ρ c]
  exact (val_main_v21_eq (F := Ideal) _ _ _).symm

/-- The second region's first array is the reference's edge mix. -/
theorem edgeMix_eq : W8 m ρ c (Proc.devRef .tc main_v43_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 5).trans ((EdgeMix.final5 (V7 m ρ) c).trans ?_)
  have hr : EdgeMix.rarr (V7 m ρ) c = val_main_v21 (F := Ideal) (m ((c : Thread nD τ).loc main_arg0)) (m ((c : Thread nD τ).loc main_arg3)) (m ((c : Thread nD τ).loc main_arg4)) := edgeSums_eq m ρ c
  have hy : EdgeMix.yarr (V7 m ρ) c = ((m ((c : Thread nD τ).loc main_arg1)) : Vec Ideal S50000x128 .f32) := at7_arg1 m ρ c
  have h0 : EdgeMix.w0arr (V7 m ρ) c = val_main_v33 (F := Ideal) (m ((c : Thread nD τ).loc main_arg2)) := at7_v41 m ρ c
  have h1 : EdgeMix.w1arr (V7 m ρ) c = val_main_v38 (F := Ideal) (m ((c : Thread nD τ).loc main_arg2)) := at7_v42 m ρ c
  rw [hr, hy, h0, h1]
  funext i
  obtain ⟨p, q, rfl⟩ : ∃ (p : Fin 50000) (q : Fin 128), i = ix2 p q := ⟨i 0, i 1, eq_ix2 i⟩
  rw [EdgeMix.mixed_apply, edgeMix_apply]

/-- Its second array is the reference's degree-scaled edge mix. -/
theorem edgeMixScaled_eq : W8 m ρ c (Proc.devRef .tc main_v43_1) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 6).trans ((EdgeMix.final6 (V7 m ρ) c).trans ?_)
  have hr : EdgeMix.rarr (V7 m ρ) c = val_main_v21 (F := Ideal) (m ((c : Thread nD τ).loc main_arg0)) (m ((c : Thread nD τ).loc main_arg3)) (m ((c : Thread nD τ).loc main_arg4)) := edgeSums_eq m ρ c
  have hy : EdgeMix.yarr (V7 m ρ) c = ((m ((c : Thread nD τ).loc main_arg1)) : Vec Ideal S50000x128 .f32) := at7_arg1 m ρ c
  have h0 : EdgeMix.w0arr (V7 m ρ) c = val_main_v33 (F := Ideal) (m ((c : Thread nD τ).loc main_arg2)) := at7_v41 m ρ c
  have h1 : EdgeMix.w1arr (V7 m ρ) c = val_main_v38 (F := Ideal) (m ((c : Thread nD τ).loc main_arg2)) := at7_v42 m ρ c
  have he : EdgeMix.earr (V7 m ρ) c = shapeCast S50000x1 (val_main_v51 (F := Ideal) (m ((c : Thread nD τ).loc main_arg4))) shapeCasts_S50000_S50000x1 := at7_v29 m ρ c
  rw [hr, hy, h0, h1, he]
  funext i
  obtain ⟨p, q, rfl⟩ : ∃ (p : Fin 50000) (q : Fin 128), i = ix2 p q := ⟨i 0, i 1, eq_ix2 i⟩
  rw [EdgeMix.mixedScaled_apply, EdgeMix.mixed_apply, edgeMixScaled_apply, edgeMix_apply, KeepdimsLayout.shapeCast_a_a1_apply]

/-- The third region's first operand is the reference's node sums. -/
theorem nodeSums_eq : W9 m ρ c (Proc.devRef .tc main_v53) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (at9_v53 m ρ c).trans ?_
  rw [edgeMixScaled_eq m ρ c]
  exact (val_main_v64_eq (F := Ideal) _ _ _ _ _).symm

/-- The third region's array, the program's first result, is the reference's node mix. -/
theorem nodeMix_eq : W10 m ρ c (Proc.devRef .tc main_v54) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W10_arr m ρ c 4).trans ((NodeMix.final (V9 m ρ) c).trans ?_)
  have hr : NodeMix.rarr (V9 m ρ) c = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := nodeSums_eq m ρ c
  have hx : NodeMix.xarr (V9 m ρ) c = ((m ((c : Thread nD τ).loc main_arg0)) : Vec Ideal S100000x128 .f32) := at9_arg0 m ρ c
  have h0 : NodeMix.w0arr (V9 m ρ) c = val_main_v33 (F := Ideal) (m ((c : Thread nD τ).loc main_arg2)) := at9_v41 m ρ c
  have h1 : NodeMix.w1arr (V9 m ρ) c = val_main_v38 (F := Ideal) (m ((c : Thread nD τ).loc main_arg2)) := at9_v42 m ρ c
  rw [hr, hx, h0, h1]
  funext i
  obtain ⟨p, q, rfl⟩ : ∃ (p : Fin 100000) (q : Fin 128), i = ix2 p q := ⟨i 0, i 1, eq_ix2 i⟩
  rw [NodeMix.mixed_apply, nodeMix_apply]

/-- The program's second result, the second region's first array left alone, is the reference's edge mix. -/
theorem edgeMix_final : W10 m ρ c (Proc.devRef .tc main_v43_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (at10_v43_0 m ρ c).trans (edgeMix_eq m ρ c)

/-- The kernel program's run, read: both results at the reference's stage functions of the launch arguments, the
    arguments unchanged. -/
theorem run : θ_run defs (onTc (τ := τ) (main (F := Ideal))) ⟨m, fun _ => 0, ρ⟩ (fun r => ∀ c : Dev nD,
      r.2.mem ((c.tc : Thread nD τ).loc main_v54) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v43_0) = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (nodeMix_eq m ρ c), (h c).2.1.trans (edgeMix_final m ρ c), (h c).2.2⟩)
    (Cert.KernelIdeal.Named.run_named (F := Ideal) m ρ)

end Cert.KernelIdeal.Result

end
-- ==== Proof.lean ====
/-
  The kernel program computes a hypergraph diffusion step in three dense kernel regions with the sparse steps on the
  host between them: X's rows scaled by the inverse node degrees (first region); those rows gathered by node index and
  summed by edge index (host); the sums mixed with Y under the two rows of the softmax of the weights, and the mix's
  rows scaled by the inverse edge degrees (second region); those rows gathered by edge index and summed by node index
  (host); the sums mixed with X under the same two weight rows (third region).  The reference does the same steps with
  host operations only.  At the ideal instance both results agree entry by entry, because every entry is built by the
  same products and sums of the same operands on both sides; no law of arithmetic and no finiteness of the inputs is
  needed.  The three frames are the generated ones (the reference's is its run with the results dropped), and the
  idealization rewrote nothing, so the sanctioned-idealization claim is trivial.
-/
import proofs.«121313_j22393959481939_1_alg».proof.Defs
import proofs.«121313_j22393959481939_1_alg».proof.Proof.Gen.Kernel
import proofs.«121313_j22393959481939_1_alg».proof.Proof.Gen.Kernel.Frame
import proofs.«121313_j22393959481939_1_alg».proof.Proof.Gen.KernelIdeal
import proofs.«121313_j22393959481939_1_alg».proof.Proof.Gen.KernelIdeal.Frame
import proofs.«121313_j22393959481939_1_alg».proof.Proof.Gen.ReferenceIdeal
import proofs.«121313_j22393959481939_1_alg».proof.Proof.Gen.Pre_finite_inputs
import proofs.«121313_j22393959481939_1_alg».proof.Proof.RefRead
import proofs.«121313_j22393959481939_1_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- Both programs end with the reference's two stage functions of the (agreeing) arguments in their result buffers. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ?_) (Cert.ReferenceIdeal.ValueP.run (F := Ideal) m' ρ')
  obtain ⟨h0, h1, h2, h3, h4⟩ := hagree c
  refine ⟨(h c).1.trans ?_, (h c).2.1.trans ?_, (h c).2.2⟩
  · rw [Cert.ReferenceIdeal.ReadP.val_main_v75_eq, h0, h1, h2, h3, h4]
  · rw [Cert.ReferenceIdeal.ReadP.val_main_v43_eq, h0, h1, h2, h3, h4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
